-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : FVec F S16384x4096 .f32) (main_arg2 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩
abbrev S4x2048 : Shape := ⟨2, ![4, 2048]⟩
abbrev S4x2048x1 : Shape := ⟨3, ![4, 2048, 1]⟩
abbrev S16384x1 : Shape := ⟨2, ![16384, 1]⟩
abbrev S8192x4096 : Shape := ⟨2, ![8192, 4096]⟩
abbrev S1x16384 : Shape := ⟨2, ![1, 16384]⟩
abbrev S8192x16384 : Shape := ⟨2, ![8192, 16384]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩
abbrev S4096x512 : Shape := ⟨2, ![4096, 512]⟩
abbrev S4x2048x16384 : Shape := ⟨3, ![4, 2048, 16384]⟩

abbrev nBuf : Space → Nat
  | .hbm => 63
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S4x2048x4096, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S4x2048x4096, .f32⟩
  | .hbm, ⟨11, _⟩ => ⟨S4x2048x4096, .f32⟩
  | .hbm, ⟨12, _⟩ => ⟨S_, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x2048x4096, .f32⟩
  | .hbm, ⟨20, _⟩ => ⟨S4x2048x4096, .f32⟩
  | .hbm, ⟨21, _⟩ => ⟨S_, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S_, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | .hbm, ⟨30, _⟩ => ⟨S4x2048x4096, .f32⟩
  | .hbm, ⟨31, _⟩ => ⟨S16384x4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S16384x4096, .f32⟩
  | .hbm, ⟨39, _⟩ => ⟨S16384x4096, .f32⟩
  | .hbm, ⟨40, _⟩ => ⟨S16384x4096, .i1⟩
  | .hbm, ⟨41, _⟩ => ⟨S16384x4096, .f32⟩
  | .hbm, ⟨42, _⟩ => ⟨S_, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S16384x4096, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x4096, .f32⟩
  | .hbm, ⟨54, _⟩ => ⟨S16384x4096, .f32⟩
  | .hbm, ⟨55, _⟩ => ⟨S16384x4096, .f32⟩
  | .hbm, ⟨56, _⟩ => ⟨S16384x4096, .f32⟩
  | .hbm, ⟨57, _⟩ => ⟨S8192x4096, .f32⟩
  | .hbm, ⟨58, _⟩ => ⟨S8192x4096, .bf16⟩
  | .hbm, ⟨59, _⟩ => ⟨S16384x4096, .bf16⟩
  | .hbm, ⟨60, _⟩ => ⟨S1x16384, .f32⟩
  | .hbm, ⟨61, _⟩ => ⟨S8192x16384, .f32⟩
  | .hbm, ⟨62, _⟩ => ⟨S4x2048x16384, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_call2_v0 : Ref sig .tc := ⟨.hbm, 43, rfl⟩
abbrev main_call2_v1 : Ref sig .tc := ⟨.hbm, 44, rfl⟩
abbrev main_v25 : Ref sig .tc := ⟨.hbm, 45, rfl⟩
abbrev main_v26 : Ref sig .tc := ⟨.hbm, 46, rfl⟩
abbrev main_cst_9 : Ref sig .tc := ⟨.hbm, 47, rfl⟩
abbrev main_v27 : Ref sig .tc := ⟨.hbm, 48, rfl⟩
abbrev main_v28 : Ref sig .tc := ⟨.hbm, 49, rfl⟩
abbrev main_cst_10 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  reducesTo_S16384x4096_S_d0_1 : S16384x4096.ReducesTo [0, 1] S_
  bcast_S_S16384x4096 : S_.BroadcastsInDim S16384x4096 (![] : Fin 0 → Fin S16384x4096.rank)
  reducesTo_S16384x4096_S16384_d1 : S16384x4096.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  shapeCasts_S4x2048x4096_S8192x4096 : S4x2048x4096.ShapeCasts S8192x4096
  bitsLt_bf16_f32 : FTy.bits .bf16 < FTy.bits .f32
  shapeCasts_S16384_S1x16384 : S16384.ShapeCasts S1x16384
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  transposes_S512x4096_p1_0_S4096x512 : S512x4096.Transposes [1, 0] S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x16384_S4x2048x16384 : S8192x16384.ShapeCasts S4x2048x16384
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .bf16 = 32 ∨ (Rect.block (s := S16384x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x16384.size a
  hwx0_3 : ∀ i : grid0.Coords, EltTy.bits .f32 = 32 ∨ (Rect.block (s := S8192x16384) S1024x512.size (cc0_transform_3 i) (hinb0_3 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_v36) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩
abbrev S4x2048 : Shape := ⟨2, ![4, 2048]⟩
abbrev S4x2048x1 : Shape := ⟨3, ![4, 2048, 1]⟩
abbrev S16384x1 : Shape := ⟨2, ![16384, 1]⟩
abbrev S4x2048x16384 : Shape := ⟨3, ![4, 2048, 16384]⟩
abbrev S1x1x16384 : Shape := ⟨3, ![1, 1, 16384]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S4x2048x4096, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S4x2048x4096, .f32⟩
  | .hbm, ⟨11, _⟩ => ⟨S4x2048x4096, .f32⟩
  | .hbm, ⟨12, _⟩ => ⟨S_, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x2048x4096, .f32⟩
  | .hbm, ⟨20, _⟩ => ⟨S4x2048x4096, .f32⟩
  | .hbm, ⟨21, _⟩ => ⟨S_, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S_, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | .hbm, ⟨30, _⟩ => ⟨S4x2048x4096, .f32⟩
  | .hbm, ⟨31, _⟩ => ⟨S16384x4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S16384x4096, .f32⟩
  | .hbm, ⟨39, _⟩ => ⟨S16384x4096, .f32⟩
  | .hbm, ⟨40, _⟩ => ⟨S16384x4096, .i1⟩
  | .hbm, ⟨41, _⟩ => ⟨S16384x4096, .f32⟩
  | .hbm, ⟨42, _⟩ => ⟨S_, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S16384x4096, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x4096, .f32⟩
  | .hbm, ⟨54, _⟩ => ⟨S16384x4096, .f32⟩
  | .hbm, ⟨55, _⟩ => ⟨S16384x4096, .f32⟩
  | .hbm, ⟨56, _⟩ => ⟨S16384x4096, .f32⟩
  | .hbm, ⟨57, _⟩ => ⟨S4x2048x16384, .f32⟩
  | .hbm, ⟨58, _⟩ => ⟨S1x1x16384, .f32⟩
  | .hbm, ⟨59, _⟩ => ⟨S4x2048x16384, .f32⟩
  | .hbm, ⟨60, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_call2_v0 : Ref sig .tc := ⟨.hbm, 43, rfl⟩
abbrev main_call2_v1 : Ref sig .tc := ⟨.hbm, 44, rfl⟩
abbrev main_v25 : Ref sig .tc := ⟨.hbm, 45, rfl⟩
abbrev main_v26 : Ref sig .tc := ⟨.hbm, 46, rfl⟩
abbrev main_cst_9 : Ref sig .tc := ⟨.hbm, 47, rfl⟩
abbrev main_v27 : Ref sig .tc := ⟨.hbm, 48, rfl⟩
abbrev main_v28 : Ref sig .tc := ⟨.hbm, 49, rfl⟩
abbrev main_cst_10 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]

class Facts₀ : Prop where
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  reducesTo_S16384x4096_S_d0_1 : S16384x4096.ReducesTo [0, 1] S_
  bcast_S_S16384x4096 : S_.BroadcastsInDim S16384x4096 (![] : Fin 0 → Fin S16384x4096.rank)
  reducesTo_S16384x4096_S16384_d1 : S16384x4096.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Heads.lean ====
/-
  The two operands of the contraction, as functions of the inputs: the part both programs share.

  Both programs first fake-quantise the activations to int4 along the last axis,
      s = max(max over the last axis of |x|, 1e-6),   xq = (clip(round_to_even(x / s * 7), -8, 7) * s / 7 - x) + x,
  and ternarise the weights,
      thr = 0.05 * (sum of |w| over all entries) / 2^26,   alpha[o] = (sum over the row of |w[o, :]|) / 4096,
      wq = (if |w| < thr then 0 else sign(w)) * alpha + (w - w),
  operation by operation and literal by literal the same in the two programs. Nothing below ever needs to know what
  these functions compute: they are named here once, as the reference's own operations applied to the arguments, and are
  carried through the rest of the proof unopened. The row maximum of |x| enters the activations' term twice; it is kept
  as a parameter of that term (`quantActsOf`), so that the term can be compared with another program's spelling of the
  same operations without ever looking inside the maximum. The two equations at the end say that the reference's stages
  for its values %16 and %34 are these terms.
-/
import proofs.«126416_j1855425872140_1_alg».proof.Proof.Gen.ReferenceIdeal.Read

noncomputable section

namespace Cert.ReferenceIdeal.Heads

open Cert.ReferenceIdeal Cert.ReferenceIdeal.Gen Idealize.ShloMosaic

variable {F : FTy → Type} [FloatOps F]

/-- The maximum of |x| over the last axis. -/
def rowMaxAbs (x0 : (⟨S4x2048x4096, .f32⟩ : BufTy).Contents (Elt F)) : (⟨S4x2048, .f32⟩ : BufTy).Contents (Elt F) :=
  Host.reduce FloatOps.maximumf (Host.absf (x0)) (constant S_ .f32 0xFF800000#32) reducesTo_S4x2048x4096_S4x2048_d2 h_S_

/-- The quantised activations, given the row maxima. -/
def quantActsOf (x0 : (⟨S4x2048x4096, .f32⟩ : BufTy).Contents (Elt F)) (rowMax : (⟨S4x2048, .f32⟩ : BufTy).Contents (Elt F)) :
    (⟨S4x2048x4096, .f32⟩ : BufTy).Contents (Elt F) :=
  (addf (subf (Host.divf (mulf (minimumf (broadcastInDim S4x2048x4096 ![] bcast_S_S4x2048x4096 (id (constant S_ .f32 0x40E00000#32))) (maximumf (broadcastInDim S4x2048x4096 ![] bcast_S_S4x2048x4096 (id (constant S_ .f32 0xC1000000#32))) (Host.roundeven (mulf (Host.divf (x0) (broadcastInDim S4x2048x4096 ![0, 1, 2] bcast_S4x2048x1_S4x2048x4096_0_1_2 (maximumf (broadcastInDim S4x2048x1 ![0, 1] bcast_S4x2048_S4x2048x1_0_1 (rowMax)) (broadcastInDim S4x2048x1 ![] bcast_S_S4x2048x1 (constant S_ .f32 0x358637BD#32))))) (broadcastInDim S4x2048x4096 ![] bcast_S_S4x2048x4096 (constant S_ .f32 0x40E00000#32)))))) (broadcastInDim S4x2048x4096 ![0, 1, 2] bcast_S4x2048x1_S4x2048x4096_0_1_2 (maximumf (broadcastInDim S4x2048x1 ![0, 1] bcast_S4x2048_S4x2048x1_0_1 (rowMax)) (broadcastInDim S4x2048x1 ![] bcast_S_S4x2048x1 (constant S_ .f32 0x358637BD#32))))) (broadcastInDim S4x2048x4096 ![] bcast_S_S4x2048x4096 (constant S_ .f32 0x40E00000#32))) (x0)) (x0))

/-- The quantised activations. -/
def quantActs (x0 : (⟨S4x2048x4096, .f32⟩ : BufTy).Contents (Elt F)) : (⟨S4x2048x4096, .f32⟩ : BufTy).Contents (Elt F) :=
  quantActsOf x0 (rowMaxAbs x0)

/-- The ternarised weights. -/
def ternWeights (x1 : (⟨S16384x4096, .f32⟩ : BufTy).Contents (Elt F)) : (⟨S16384x4096, .f32⟩ : BufTy).Contents (Elt F) :=
  (addf (mulf (select (cmpf .olt (Host.absf (x1)) (broadcastInDim S16384x4096 ![] bcast_S_S16384x4096 (mulf (constant S_ .f32 0x3D4CCCCD#32) (Host.divf (Host.reduceAdd (Host.absf (x1)) (constant S_ .f32 0x00000000#32) reducesTo_S16384x4096_S_d0_1 h_S_) (constant S_ .f32 0x4C800000#32))))) (broadcastInDim S16384x4096 ![] bcast_S_S16384x4096 (id (constant S_ .f32 0x00000000#32))) (Host.sign (x1))) (broadcastInDim S16384x4096 ![0, 1] bcast_S16384x1_S16384x4096_0_1 (Host.divf (broadcastInDim S16384x1 ![0] bcast_S16384_S16384x1_0 (Host.reduceAdd (Host.absf (x1)) (constant S_ .f32 0x00000000#32) reducesTo_S16384x4096_S16384_d1 h_S_)) (broadcastInDim S16384x1 ![] bcast_S_S16384x1 (constant S_ .f32 0x45800000#32))))) (subf (x1) (x1)))

/-- The reference's value %16 is the quantised activations. -/
theorem stage_acts (x0 : (⟨S4x2048x4096, .f32⟩ : BufTy).Contents (Elt F)) :
    Cert.ReferenceIdeal.Read.val_main_v16 (F := F) x0 = quantActs x0 := rfl

/-- The reference's value %34 is the ternarised weights. -/
theorem stage_weights (x1 : (⟨S16384x4096, .f32⟩ : BufTy).Contents (Elt F)) :
    Cert.ReferenceIdeal.Read.val_main_v34 (F := F) x1 = ternWeights x1 := rfl

end Cert.ReferenceIdeal.Heads

end
-- ==== Proof.AffineSpec.lean ====
/-
  The function both programs compute, stated once over literal shapes, and the re-layout between its two forms.

  For an activation array X of shape [4, 2048, 4096], a weight array W of shape [16384, 4096] and a bias b of
  shape [16384], the layer's result at (batch, position, output) is the inner product of X's row (batch, position) with
  W's row (output), plus the bias at that output:
      out[b, s, o] = (sum over k < 4096 of X[b, s, k] * W[o, k]) + bias[o].
  The same map on a [8192, 4096] matrix A (the activations with batch and position flattened into one row index), the
  weights and a [1, 16384] bias row reads
      out2[r, o] = (sum over k < 4096 of A[r, k] * W[o, k]) + biasRow[0, o].
  Row r of the flattened matrix is row (r / 2048, r mod 2048) of X, because a reshape keeps the row-major position: so
  reshaping out2 back to [4, 2048, 16384] gives out, entry by entry. No law of the extended reals is used beyond
  reading both sides at one index: the two sums have the same terms in the same order.
-/
import Idealize.ShloMosaic.PureOps.Ideal
import Idealize.ShloMosaic.Lib.ValueIdx
import Idealize.ShloMosaic.Lib.Pipeline.Value

noncomputable section

open scoped BigOperators

namespace Cert.AffineSpec

open Idealize.ShloMosaic Idealize.ShloMosaic.ValueIdx

/-- The flattened form: row `r` of `A` against row `o` of `W`, plus the bias row's entry `o`. -/
def rowsDot (A : (⟨2, ![8192, 4096]⟩ : Shape).Idx → EReal) (W : (⟨2, ![16384, 4096]⟩ : Shape).Idx → EReal)
    (biasRow : (⟨2, ![1, 16384]⟩ : Shape).Idx → EReal) : (⟨2, ![8192, 16384]⟩ : Shape).Idx → EReal :=
  fun i => (∑ k : Fin 4096, A (ix2 (i 0) k) * W (ix2 (i 1) k)) + biasRow (ix2 (0 : Fin 1) (i 1))

/-- The layer: row `(b, s)` of `X` against row `o` of `W`, plus the bias at `o`. -/
def affine (X : (⟨3, ![4, 2048, 4096]⟩ : Shape).Idx → EReal) (W : (⟨2, ![16384, 4096]⟩ : Shape).Idx → EReal)
    (bias : (⟨1, ![16384]⟩ : Shape).Idx → EReal) : (⟨3, ![4, 2048, 16384]⟩ : Shape).Idx → EReal :=
  fun i => (∑ k : Fin 4096, X (ix3 (i 0) (i 1) k) * W (ix2 (i 2) k)) + bias (ix1 (i 2))

/-- The flattened activations at row `b * 2048 + s` are `X`'s row `(b, s)`. -/
theorem flat_rows (X : (⟨3, ![4, 2048, 4096]⟩ : Shape).Idx → EReal)
    (h : (⟨3, ![4, 2048, 4096]⟩ : Shape).ShapeCasts ⟨2, ![8192, 4096]⟩)
    (b : Fin 4) (s : Fin 2048) (r : Fin 8192) (hr : r.val = b.val * 2048 + s.val) (k : Fin 4096) :
    shapeCast ⟨2, ![8192, 4096]⟩ X h (ix2 r k) = X (ix3 b s k) :=
  shapeCast_apply X h _ _ (by
    rw [Shape.rowMajor_val_three, Shape.rowMajor_val_two]
    show (b.val * 2048 + s.val) * 4096 + k.val = r.val * 4096 + k.val
    rw [hr])

/-- The bias row's entry `o` is the bias at `o`. -/
theorem bias_row (bias : (⟨1, ![16384]⟩ : Shape).Idx → EReal)
    (h : (⟨1, ![16384]⟩ : Shape).ShapeCasts ⟨2, ![1, 16384]⟩) (o : Fin 16384) :
    shapeCast ⟨2, ![1, 16384]⟩ bias h (ix2 (0 : Fin 1) o) = bias (ix1 o) :=
  shapeCast_apply bias h _ _ (by
    rw [Shape.rowMajor_val_one, Shape.rowMajor_val_two]
    show o.val = 0 * 16384 + o.val
    omega)

/-- Reshaping the flattened result back to [4, 2048, 16384] gives the layer's result. -/
theorem reshape_rowsDot (X : (⟨3, ![4, 2048, 4096]⟩ : Shape).Idx → EReal) (W : (⟨2, ![16384, 4096]⟩ : Shape).Idx → EReal)
    (bias : (⟨1, ![16384]⟩ : Shape).Idx → EReal)
    (hx : (⟨3, ![4, 2048, 4096]⟩ : Shape).ShapeCasts ⟨2, ![8192, 4096]⟩)
    (hb : (⟨1, ![16384]⟩ : Shape).ShapeCasts ⟨2, ![1, 16384]⟩)
    (ho : (⟨2, ![8192, 16384]⟩ : Shape).ShapeCasts ⟨3, ![4, 2048, 16384]⟩) :
    shapeCast ⟨3, ![4, 2048, 16384]⟩
        (rowsDot (shapeCast ⟨2, ![8192, 4096]⟩ X hx) W (shapeCast ⟨2, ![1, 16384]⟩ bias hb)) ho
      = affine X W bias := by
  funext i
  obtain ⟨b, s, o, rfl⟩ : ∃ (b : Fin 4) (s : Fin 2048) (o : Fin 16384), i = ix3 b s o := ⟨i 0, i 1, i 2, eq_ix3 i⟩
  have hlt : b.val * 2048 + s.val < 8192 := by have := b.isLt; have := s.isLt; omega
  have e : shapeCast ⟨3, ![4, 2048, 16384]⟩
        (rowsDot (shapeCast ⟨2, ![8192, 4096]⟩ X hx) W (shapeCast ⟨2, ![1, 16384]⟩ bias hb)) ho (ix3 b s o)
      = rowsDot (shapeCast ⟨2, ![8192, 4096]⟩ X hx) W (shapeCast ⟨2, ![1, 16384]⟩ bias hb)
          (ix2 (⟨b.val * 2048 + s.val, hlt⟩ : Fin 8192) o) :=
    shapeCast_apply _ ho _ _ (by
      rw [Shape.rowMajor_val_two, Shape.rowMajor_val_three]
      show (b.val * 2048 + s.val) * 16384 + o.val = (b.val * 2048 + s.val) * 16384 + o.val
      rfl)
  rw [e]
  show (∑ k : Fin 4096, shapeCast ⟨2, ![8192, 4096]⟩ X hx (ix2 (⟨b.val * 2048 + s.val, hlt⟩ : Fin 8192) k) * W (ix2 o k))
      + shapeCast ⟨2, ![1, 16384]⟩ bias hb (ix2 (0 : Fin 1) o)
    = (∑ k : Fin 4096, X (ix3 b s k) * W (ix2 o k)) + bias (ix1 o)
  rw [bias_row bias hb o]
  refine congrArg (· + bias (ix1 o)) (Finset.sum_congr rfl fun k _ => ?_)
  rw [flat_rows X hx b s ⟨b.val * 2048 + s.val, hlt⟩ rfl k]

end Cert.AffineSpec

end
-- ==== Proof.RefAffine.lean ====
/-
  The reference's result is the layer's map of its own quantised operands.

  The reference ends in a contraction of the quantised activations (its value %16, shape [4, 2048, 4096]) with the
  ternarised weights (its value %34, shape [16384, 4096]) over their last axes, plus the bias broadcast along batch and
  position. Read at (b, s, o): the contraction's left operand is indexed (b, s, k), its right operand (o, k), and the
  two broadcasts of the bias read it at o. That is the layer's map, term by term.
-/
import proofs.«126416_j1855425872140_1_alg».proof.Proof.Gen.ReferenceIdeal.Read
import proofs.«126416_j1855425872140_1_alg».proof.Proof.AffineSpec

noncomputable section

open scoped BigOperators

namespace Cert.ReferenceIdeal.RefAffine

open Cert.ReferenceIdeal Cert.ReferenceIdeal.Read Idealize.ShloMosaic Idealize.ShloMosaic.ValueIdx

/-- The contraction's left operand index at result index `i` and position `k` is `(i 0, i 1, k)`. -/
theorem left_index (i : S4x2048x16384.Idx) (k : Fin 4096) : lidx_main_v35 i k = ix3 (i 0) (i 1) k :=
  funext fun a => Fin.ext (by match a with | ⟨0, _⟩ => rfl | ⟨1, _⟩ => rfl | ⟨2, _⟩ => rfl)

/-- Its right operand index is `(i 2, k)`. -/
theorem right_index (i : S4x2048x16384.Idx) (k : Fin 4096) : ridx_main_v35 i k = ix2 (i 2) k :=
  funext fun a => Fin.ext (by match a with | ⟨0, _⟩ => rfl | ⟨1, _⟩ => rfl)

/-- The twice-broadcast bias is read at `i 2`. -/
theorem bias_index (i : S4x2048x16384.Idx) : idx_main_v36 (idx_main_v37 i) = ix1 (i 2) :=
  funext fun a => Fin.ext (by match a with | ⟨0, _⟩ => rfl)

/-- The reference's last value is the layer's map of its values %16 and %34 and the bias. -/
theorem result_eq (x0 : (⟨S4x2048x4096, .f32⟩ : BufTy).Contents (Elt Ideal)) (x1 : (⟨S16384x4096, .f32⟩ : BufTy).Contents (Elt Ideal))
    (x2 : (⟨S16384, .f32⟩ : BufTy).Contents (Elt Ideal)) :
    val_main_v38 (F := Ideal) x0 x1 x2
      = Cert.AffineSpec.affine (val_main_v16 (F := Ideal) x0) (val_main_v34 (F := Ideal) x1) x2 := by
  funext i
  rw [val_main_v38_apply, val_main_v35_apply, val_main_v37_apply, val_main_v36_apply]
  simp only [left_index, right_index, bias_index]
  rfl

end Cert.ReferenceIdeal.RefAffine

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.BlockProduct.lean ====
/-
  The kernel body's stored value, read at one entry of the output block.

  At a grid point the body loads an activation block a : [1024, 4096], a weight block w : [512, 4096] and a bias block
  c : [1, 512], and stores   (a x transpose(w), accumulated into zeros)  +  (c broadcast over the 1024 rows).
  Read at entry (p, q) on the extended reals:
    * the product into a zero accumulator is the bare contraction sum (0 + x = x), which, re-indexed along the one
      contracted axis, is the sum over k < 4096 of a[p, k] * transpose(w)[k, q];
    * transpose(w)[k, q] is w[q, k];
    * the broadcast bias at (p, q) is c[0, q], its row axis having extent one.
  So the entry is  (sum over k of a[p, k] * w[q, k]) + c[0, q]: row p of the activation block against row q of the weight
  block, plus the bias. The casts of a block to its own shape are the identity.
-/
import proofs.«126416_j1855425872140_1_alg».proof.Proof.Gen.KernelIdeal.Skeleton
import proofs.«126416_j1855425872140_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.BlockProduct

open Cert.KernelIdeal Cert.KernelIdeal.Gen Idealize.ShloMosaic Idealize.ShloMosaic.ValueIdx

/-- The product of the activation block with the transposed weight block, into zeros, at `(p, q)`: row `p` against
    row `q`. -/
theorem product_at (a : FVec Ideal S1024x4096 .bf16) (w : FVec Ideal S512x4096 .bf16) (p : Fin 1024) (q : Fin 512) :
    matmul (F := Ideal) dot_S1024x4096_S4096x512_S1024x512_1_0_0_1_n_n none a
        (transpose S4096x512 [1, 0] w transposes_S512x4096_p1_0_S4096x512) (constant S1024x512 .f32 0x00000000#32) (ix2 p q)
      = ∑ k : Fin 4096, a (ix2 p k) * w (ix2 q k) := by
  simp only [matmul]
  rw [Ideal.matmul_constant_zero_apply,
    PlainDot.sum_eq dot_S1024x4096_S4096x512_S1024x512_1_0_0_1_n_n rfl rfl rfl rfl rfl rfl]
  refine Finset.sum_congr rfl fun k _ => ?_
  rw [transpose_ix2_apply]

/-- The bias block broadcast over the rows, at `(p, q)`: its entry `(0, q)`. -/
theorem bias_at (c : FVec Ideal S1x512 .f32) (p : Fin 1024) (q : Fin 512) :
    broadcastTo S1024x512 c broadcasts_S1x512_S1024x512 (ix2 p q) = c (ix2 (0 : Fin 1) q) :=
  broadcastTo_apply c broadcasts_S1x512_S1024x512 _ _ (fun d => match d with
    | ⟨0, _⟩ => by show (0 : Nat) = if (1 : Nat) = 1 then 0 else p.val; rw [if_pos rfl]
    | ⟨1, _⟩ => by show q.val = if (512 : Nat) = 1 then 0 else q.val; rw [if_neg (by decide)])

/-- The stored value at `(p, q)`. -/
theorem stored_at (a : Vec Ideal S1024x4096 .bf16) (w : Vec Ideal S512x4096 .bf16) (c : Vec Ideal S1x512 .f32)
    (p : Fin 1024) (q : Fin 512) :
    k0_pay1 (F := Ideal) a w c (ix2 p q) = (∑ k : Fin 4096, a (ix2 p k) * w (ix2 q k)) + c (ix2 (0 : Fin 1) q) := by
  unfold k0_pay1
  rw [shapeCast_self, shapeCast_self, shapeCast_self]
  refine (addf_apply _ _ _).trans ?_
  rw [product_at a w p q, bias_at c p q]

end Cert.KernelIdeal.BlockProduct

end
-- ==== Proof.Blocks.lean ====
/-
  From the output blocks to the whole [8192, 16384] array.

  The grid has 8 x 32 points; point t = 32 * i + j handles rows [1024 i, 1024 i + 1024) of the flattened activations,
  rows [512 j, 512 j + 512) of the weights, columns [512 j, 512 j + 512) of the bias row, and writes back the output
  block at rows 1024 i.., columns 512 j... The body's stored entry (p, q) is row p of its activation block against row q
  of its weight block plus the bias block's entry q; those are row 1024 i + p of the activations, row 512 j + q of the
  weights and bias entry 512 j + q: so what point t writes back is exactly block t of the one whole-array function
  "row r against row o, plus bias o". The 256 blocks tile the array (entry (r, o) lies in the block of the point
  32 * (r / 1024) + o / 512), so after the run the array holds that function everywhere.
-/
import proofs.«126416_j1855425872140_1_alg».proof.Proof.Gen.KernelIdeal.Frame
import proofs.«126416_j1855425872140_1_alg».proof.Proof.BlockProduct
import proofs.«126416_j1855425872140_1_alg».proof.Proof.AffineSpec
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem Cert.AffineSpec
open Idealize.ShloMosaic.Pipeline (Dat)

variable (m : (ℓ : Loc nD τ sig) → Buf (Elt Ideal) ℓ)

/-- The three arrays the region reads, as it finds them, at their literal types: the flattened quantised activations,
    the ternarised weights and the bias row. -/
abbrev acts (c : Dev nD) : Vec Ideal S8192x4096 .bf16 := V m c main_v36
abbrev wts (c : Dev nD) : Vec Ideal S16384x4096 .bf16 := V m c main_v37
abbrev biasRow (c : Dev nD) : Vec Ideal S1x16384 .f32 := V m c main_v38

theorem zero_offsets : (![0, 0] : Fin 2 → Nat) = fun _ => 0 := funext fun a => by fin_cases a <;> rfl

/-- One entry of one block: if the activation block's row `p` is the array's row `rowOf p`, the weight block's row `q`
    the array's row `colOf q` and the bias block's entry `q` the bias row's entry `colOf q`, the stored entry `(p, q)` is
    the whole-array function at `(rowOf p, colOf q)`. -/
theorem entry_eq (A : Vec Ideal S8192x4096 .bf16) (W : Vec Ideal S16384x4096 .bf16) (B : Vec Ideal S1x16384 .f32)
    (a : Vec Ideal S1024x4096 .bf16) (w : Vec Ideal S512x4096 .bf16) (b : Vec Ideal S1x512 .f32)
    (rowOf : Fin 1024 → Fin 8192) (colOf : Fin 512 → Fin 16384)
    (ha : ∀ (p : Fin 1024) (k : Fin 4096), a (ix2 p k) = A (ix2 (rowOf p) k))
    (hw : ∀ (q : Fin 512) (k : Fin 4096), w (ix2 q k) = W (ix2 (colOf q) k))
    (hb : ∀ q : Fin 512, b (ix2 (0 : Fin 1) q) = B (ix2 (0 : Fin 1) (colOf q)))
    (p : Fin 1024) (q : Fin 512) :
    k0_pay1 (F := Ideal) a w b (ix2 p q) = rowsDot A W B (ix2 (rowOf p) (colOf q)) := by
  rw [Cert.KernelIdeal.BlockProduct.stored_at]
  show _ = (∑ k : Fin 4096, A (ix2 (rowOf p) k) * W (ix2 (colOf q) k)) + B (ix2 (0 : Fin 1) (colOf q))
  rw [hb q]
  exact congrArg (· + B (ix2 (0 : Fin 1) (colOf q))) (Finset.sum_congr rfl fun k _ => by rw [ha p k, hw q k])

/-- The printed index maps in closed form, decided over the 256 points: the output block of point `t` is
    `(t / 32, t mod 32)`, the activation block `(t / 32, 0)`, the weight block `(t mod 32, 0)`, the bias block
    `(0, t mod 32)`. -/
theorem grid_facts : ∀ t : Fin cfg0.N,
    win0_3.index t (0 : Fin 2) = t.val / 32 ∧ win0_3.index t (1 : Fin 2) = t.val % 32
    ∧ win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = 0 ∧ win0_2.index t (1 : Fin 2) = t.val % 32 :=
  (by decide +kernel : ∀ t : Fin grid0.N, _)

/-- WHAT POINT `t` WRITES BACK is block `t` of the whole-array function of the arrays as the region finds them. -/
theorem flushed_eq (c : Dev nD) (t : Fin cfg0.N) :
    (dats m 0 c).flushed 3 t
      = ((cfg0.win 3).blk t).view.read (Elt Ideal) (rowsDot (acts m c) (wts m c) (biasRow m c)) := by
  show (cfg0.win 3).cut (grid0.coords t) ((dats m 0 c).after 3 t) = _
  rw [after0_3]
  unfold out0_3
  rw [View.canon_unit_zero zero_offsets]
  simp only [View.ld_unit_zero (S := S1024x4096) zero_offsets, View.ld_unit_zero (S := S512x4096) zero_offsets,
    View.ld_unit_zero (S := S1x512) zero_offsets]
  obtain ⟨e30, e31, e00, e01, e10, e11, e20, e21⟩ := grid_facts t
  have ht : t.val < 256 := lt_of_lt_of_eq t.isLt N_0
  funext j
  obtain ⟨p, q, rfl⟩ : ∃ (p : Fin 1024) (q : Fin 512), j = ix2 p q := ⟨j 0, j 1, eq_ix2 j⟩
  have hp : p.val < 1024 := p.isLt
  have hq : q.val < 512 := q.isLt
  show k0_pay1 (F := Ideal) (iblk m c 0 t) (iblk m c 1 t) (iblk m c 2 t) (ix2 p q)
    = rowsDot (acts m c) (wts m c) (biasRow m c) (((cfg0.win 3).blk t).view.emb (ix2 p q))
  refine (entry_eq (acts m c) (wts m c) (biasRow m c) (iblk m c 0 t) (iblk m c 1 t) (iblk m c 2 t)
    (fun p' => ⟨t.val / 32 * 1024 + p'.val, by have := p'.isLt; omega⟩)
    (fun q' => ⟨t.val % 32 * 512 + q'.val, by have := q'.isLt; omega⟩) ?_ ?_ ?_ p q).trans ?_
  · intro p' k
    show acts m c (((cfg0.win 0).blk t).view.emb (ix2 p' k)) = acts m c (ix2 ⟨t.val / 32 * 1024 + p'.val, _⟩ k)
    refine congrArg (acts m c) (funext fun d => Fin.ext ?_)
    match d with
    | ⟨0, _⟩ => show win0_0.index t (0 : Fin 2) * 1024 + 1 * p'.val = t.val / 32 * 1024 + p'.val; omega
    | ⟨1, _⟩ => show win0_0.index t (1 : Fin 2) * 4096 + 1 * k.val = k.val; omega
  · intro q' k
    show wts m c (((cfg0.win 1).blk t).view.emb (ix2 q' k)) = wts m c (ix2 ⟨t.val % 32 * 512 + q'.val, _⟩ k)
    refine congrArg (wts m c) (funext fun d => Fin.ext ?_)
    match d with
    | ⟨0, _⟩ => show win0_1.index t (0 : Fin 2) * 512 + 1 * q'.val = t.val % 32 * 512 + q'.val; omega
    | ⟨1, _⟩ => show win0_1.index t (1 : Fin 2) * 4096 + 1 * k.val = k.val; omega
  · intro q'
    show biasRow m c (((cfg0.win 2).blk t).view.emb (ix2 (0 : Fin 1) q')) = biasRow m c (ix2 (0 : Fin 1) ⟨t.val % 32 * 512 + q'.val, _⟩)
    refine congrArg (biasRow m c) (funext fun d => Fin.ext ?_)
    match d with
    | ⟨0, _⟩ => show win0_2.index t (0 : Fin 2) * 1 + 1 * 0 = 0; omega
    | ⟨1, _⟩ => show win0_2.index t (1 : Fin 2) * 512 + 1 * q'.val = t.val % 32 * 512 + q'.val; omega
  · refine congrArg (rowsDot (acts m c) (wts m c) (biasRow m c)) (funext fun d => Fin.ext ?_)
    match d with
    | ⟨0, _⟩ => show t.val / 32 * 1024 + p.val = win0_3.index t (0 : Fin 2) * 1024 + 1 * p.val; omega
    | ⟨1, _⟩ => show t.val % 32 * 512 + q.val = win0_3.index t (1 : Fin 2) * 512 + 1 * q.val; omega

/-- An entry of the array is in point `t`'s output block iff each coordinate is in the block's range on its axis. -/
theorem mem_block (t : Fin cfg0.N) (i : S8192x16384.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v39).slice (win0_3.rect t)).set ↔ _
  rw [View.set_slice_whole, Rect.mem_set_unit]
  exact Iff.rfl

/-- Every entry is in some point's block: entry `(r, o)` in that of the point `32 * (r / 1024) + o / 512`. -/
theorem covered (i : S8192x16384.Idx) :
    ∃ t : Fin cfg0.N, (cfg0.win 3).flush t = true ∧ i ∈ ((cfg0.win 3).blk t).view.set := by
  have hi0 : (i 0).val < 8192 := (i 0).isLt
  have hi1 : (i 1).val < 16384 := (i 1).isLt
  have hN : cfg0.N = 256 := N_0
  have hlt : (i 0).val / 1024 * 32 + (i 1).val / 512 < cfg0.N := by rw [hN]; omega
  obtain ⟨e30, e31, -⟩ := grid_facts ⟨(i 0).val / 1024 * 32 + (i 1).val / 512, hlt⟩
  refine ⟨⟨(i 0).val / 1024 * 32 + (i 1).val / 512, hlt⟩, flush0_3 _, ?_⟩
  rw [mem_block]
  intro a
  match a with
  | ⟨0, _⟩ =>
    show win0_3.index ⟨(i 0).val / 1024 * 32 + (i 1).val / 512, hlt⟩ (0 : Fin 2) * 1024 ≤ (i 0).val
      ∧ (i 0).val < win0_3.index ⟨(i 0).val / 1024 * 32 + (i 1).val / 512, hlt⟩ (0 : Fin 2) * 1024 + 1024
    rw [e30]
    show ((i 0).val / 1024 * 32 + (i 1).val / 512) / 32 * 1024 ≤ (i 0).val
      ∧ (i 0).val < ((i 0).val / 1024 * 32 + (i 1).val / 512) / 32 * 1024 + 1024
    omega
  | ⟨1, _⟩ =>
    show win0_3.index ⟨(i 0).val / 1024 * 32 + (i 1).val / 512, hlt⟩ (1 : Fin 2) * 512 ≤ (i 1).val
      ∧ (i 1).val < win0_3.index ⟨(i 0).val / 1024 * 32 + (i 1).val / 512, hlt⟩ (1 : Fin 2) * 512 + 512
    rw [e31]
    show ((i 0).val / 1024 * 32 + (i 1).val / 512) % 32 * 512 ≤ (i 1).val
      ∧ (i 1).val < ((i 0).val / 1024 * 32 + (i 1).val / 512) % 32 * 512 + 512
    omega

/-- THE ARRAY after the run: row `r` of the activations against row `o` of the weights, plus bias `o`, everywhere. -/
theorem final (c : Dev nD) :
    (dats m 0 c).arrAt 3 cfg0.N = rowsDot (acts m c) (wts m c) (biasRow m c) :=
  (dats m 0 c).arrAt_eq_of_cover 3 (rowsDot (acts m c) (wts m c) (biasRow m c)) (fun t _ => flushed_eq m c t) (covered)

end Cert.KernelIdeal.Blocks

end
-- ==== Proof.Entry.lean ====
/-
  The three arrays the kernel's region reads, as the region finds them.

  Before the region the kernel's program runs the shared head on its arguments and then three layout steps:
    * the quantised activations [4, 2048, 4096] are reshaped to [8192, 4096] and narrowed to bf16;
    * the ternarised weights [16384, 4096] are narrowed to bf16;
    * the bias [16384] is reshaped to a row [1, 16384].
  So the region's first array is the narrowing of the reshaped quantised activations of the first argument, its second
  the narrowing of the ternarised weights of the second argument, its third the bias reshaped. The kernel's head is
  the same list of operations as the reference's, whatever the float operations are: the statements hold for every
  instance of them. The row maximum of |x| is matched on its own and kept out of the comparison of the two spellings
  of the activations' term.
-/
import proofs.«126416_j1855425872140_1_alg».proof.Proof.Gen.KernelIdeal.Frame
import proofs.«126416_j1855425872140_1_alg».proof.Proof.Heads
import Idealize.ShloMosaic.Lib.StableHlo.Run

set_option Elab.async false

noncomputable section

namespace Cert.KernelIdeal.Entry

open Cert.KernelIdeal Cert.KernelIdeal.Gen Idealize.ShloMosaic Idealize.ShloMosaic.TcCoe Idealize.SL.Sem
open Idealize.ShloMosaic.StableHlo Cert.ReferenceIdeal.Heads

variable {F : FTy → Type} [FloatOps F]
variable (m : (ℓ : Loc nD τ sig) → Buf (Elt F) ℓ)

/-- The kernel's row maximum of |x| is the reference's. -/
theorem rowMax_eq (x : FVec F S4x2048x4096 .f32) :
    (Host.reduce FloatOps.maximumf (Host.absf x) (constant (F := F) S_ .f32 0xFF800000#32)
        reducesTo_S4x2048x4096_S4x2048_d2 h_S_ : FVec F S4x2048 .f32)
      = rowMaxAbs (F := F) x := rfl

set_option maxRecDepth 8192 in
set_option maxHeartbeats 1000000 in
/-- The region's first array: the quantised activations of the first argument, flattened and narrowed. -/
theorem acts_entry (c : Dev nD) :
    (V m c main_v36 : Vec F S8192x4096 .bf16)
      = truncf (F := F) .bf16
          (shapeCast S8192x4096 (quantActs (F := F) (V m c main_arg0)) shapeCasts_S4x2048x4096_S8192x4096)
          bitsLt_bf16_f32 := by
  dsimp only [V, V0]
  simp only [hostOps0, hostOps0_1, hostOps0_2, hostOps0_3, hostOps0_4, hostOps0_5, hostOps0_6, List.flatten_cons, List.flatten_nil, List.append_nil, List.cons_append, List.nil_append]
  after_results_simp
  unfold quantActs
  rw [← rowMax_eq (m (c, Proc.tc.devRef main_arg0))]
  generalize (Host.reduce FloatOps.maximumf (Host.absf (m (c, Proc.tc.devRef main_arg0)))
    (constant (F := F) S_ .f32 0xFF800000#32) reducesTo_S4x2048x4096_S4x2048_d2 h_S_ : FVec F S4x2048 .f32) = rowMax
  unfold quantActsOf
  rfl

set_option maxRecDepth 8192 in
set_option maxHeartbeats 1000000 in
/-- The region's second array: the ternarised weights of the second argument, narrowed. -/
theorem weights_entry (c : Dev nD) :
    (V m c main_v37 : Vec F S16384x4096 .bf16)
      = truncf (F := F) .bf16 (ternWeights (F := F) (V m c main_arg1)) bitsLt_bf16_f32 := by
  dsimp only [V, V0]
  simp only [hostOps0, hostOps0_1, hostOps0_2, hostOps0_3, hostOps0_4, hostOps0_5, hostOps0_6, List.flatten_cons, List.flatten_nil, List.append_nil, List.cons_append, List.nil_append]
  after_results_simp
  unfold ternWeights
  rfl

set_option maxRecDepth 8192 in
set_option maxHeartbeats 1000000 in
/-- The region's third array: the bias as a row. -/
theorem bias_entry (c : Dev nD) :
    (V m c main_v38 : Vec F S1x16384 .f32) = shapeCast S1x16384 (V m c main_arg2) shapeCasts_S16384_S1x16384 := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

end Cert.KernelIdeal.Entry

end
-- ==== Proof.KernelRun.lean ====
/-
  The kernel program's run, read: its result is the layer's map of the shared head applied to its arguments.

  After the region the program reshapes the [8192, 16384] output array to [4, 2048, 16384]. The output array holds,
  at (r, o), row r of the region's first array against row o of its second, plus entry o of its third (the blocks
  module). The first array is the quantised activations flattened, the second the ternarised weights, the third the
  bias as a row (the entry module); the narrowing to bf16 changes no value on the extended reals. Reshaping a result
  computed on flattened rows back to [4, 2048, 16384] gives the layer's map (the specification module).
-/
import proofs.«126416_j1855425872140_1_alg».proof.Proof.Blocks
import proofs.«126416_j1855425872140_1_alg».proof.Proof.Entry
import proofs.«126416_j1855425872140_1_alg».proof.Proof.AffineSpec
import Idealize.ShloMosaic.Lib.StableHlo.Run

set_option Elab.async false

noncomputable section

namespace Cert.KernelIdeal.KernelRun

open Cert.KernelIdeal Cert.KernelIdeal.Gen Idealize.ShloMosaic Idealize.ShloMosaic.TcCoe Idealize.SL.Sem
open Idealize.ShloMosaic.StableHlo Cert.ReferenceIdeal.Heads Cert.AffineSpec

variable (m : (ℓ : Loc nD τ sig) → Buf (Elt Ideal) ℓ) (ρ : Dev nD → PrngReg)

/-- On the extended reals a narrowing of the float format changes nothing. -/
theorem narrow_id {s : Shape} {φ ψ : FTy} (a : FVec Ideal s φ) (h : ψ.bits < φ.bits) :
    (truncf (F := Ideal) ψ a h : s.Idx → EReal) = a := rfl

/-- The layer's map of the head applied to the arguments: what both programs end with. -/
abbrev result (c : Dev nD) : (⟨3, ![4, 2048, 16384]⟩ : Shape).Idx → EReal :=
  affine (quantActs (F := Ideal) (m ((c : Thread nD τ).loc main_arg0)))
    (ternWeights (F := Ideal) (m ((c : Thread nD τ).loc main_arg1))) (m ((c : Thread nD τ).loc main_arg2))

/-- The region's output array after the run, in terms of the arguments. -/
theorem out_array (c : Dev nD) :
    (dats m 0 c).arrAt 3 cfg0.N
      = rowsDot (shapeCast S8192x4096 (quantActs (F := Ideal) (m ((c : Thread nD τ).loc main_arg0))) shapeCasts_S4x2048x4096_S8192x4096)
          (ternWeights (F := Ideal) (m ((c : Thread nD τ).loc main_arg1)))
          (shapeCast S1x16384 (m ((c : Thread nD τ).loc main_arg2)) shapeCasts_S16384_S1x16384) := by
  rw [Cert.KernelIdeal.Blocks.final m c]
  show rowsDot (V m c main_v36) (V m c main_v37) (V m c main_v38) = _
  rw [Cert.KernelIdeal.Entry.acts_entry m c, Cert.KernelIdeal.Entry.weights_entry m c, Cert.KernelIdeal.Entry.bias_entry m c,
    V_main_arg0 m c, V_main_arg1 m c, V_main_arg2 m c, narrow_id, narrow_id]

/-- What the program's last line leaves in its result buffer. -/
theorem tail_eq (c : Dev nD) :
    (Pipeline.afterTail₀ cfgs (dats m) 0 (V0 m) [hostOps1] c main_v40 : Vec Ideal S4x2048x16384 .f32) = result m c := by
  unfold Pipeline.afterTail₀
  show StableHlo.after hostOps1 _ (Proc.devRef .tc main_v40) = _
  after_results_simp
  have hA : Pipeline.withArrays (cfgs 0).spec c (V0 m c) (fun w => (dats m 0 c).arrAt w (cfgs 0).N) (Proc.tc.devRef main_v39)
      = (dats m 0 c).arrAt 3 cfg0.N := Pipeline.withArrays_arr spec0 launch0.win.arr_inj c _ _ 3
  rw [hA, out_array m c]
  exact reshape_rowsDot _ _ _ shapeCasts_S4x2048x4096_S8192x4096 shapeCasts_S16384_S1x16384 shapeCasts_S8192x16384_S4x2048x16384

/-- THE RUN: every weakly fair execution of the kernel's program terminates with its result buffer at the layer's map
    of the head applied to the arguments, and the arguments unchanged. -/
theorem run : θ_run defs (onTc (τ := τ) (main (F := Ideal))) ⟨m, fun _ => 0, ρ⟩ (fun r => ∀ c : Dev nD,
      r.2.mem ((c.tc : Thread nD τ).loc main_v40) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v40 (Pipeline.mem_restRefs_of main_v40 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KernelRun

end
-- ==== Proof.lean ====
/-
  A linear layer on fake-quantised operands: the blocked kernel against the plain contraction.

  Both programs compute, from activations x : [4, 2048, 4096], weights w : [16384, 4096] and a bias b : [16384],
      out[b, s, o] = (sum over k < 4096 of xq[b, s, k] * wq[o, k]) + bias[o],
  where xq is x fake-quantised to int4 along its last axis and wq is w ternarised (sign, or zero below a threshold, times
  the row's mean magnitude). The two programs spell xq and wq with the same operations and the same literals, so these
  are carried as two unopened functions of the arguments (the heads module).

  The reference contracts xq with wq over their last axes and adds the bias broadcast over batch and position: at
  (b, s, o) that is the formula above, term by term.

  The kernel flattens batch and position into one row index r = 2048 b + s, narrows both operands to bf16 (no change of
  value on the extended reals) and runs an 8 x 32 grid: point (i, j) multiplies the [1024, 4096] activation block i by the
  transposed [512, 4096] weight block j into a zero accumulator and adds the bias block j along the rows. An entry of that
  block is row p of the activation block against row q of the weight block plus the bias entry q, i.e. the formula at
  row 1024 i + p and output 512 j + q; the 256 blocks tile the [8192, 16384] result, which the last line reshapes back to
  [4, 2048, 16384]. A sum into a zero accumulator is the sum, and the two sums have the same terms in the same order:
  no law of the extended reals beyond 0 + x = x is used, and the precondition (finite inputs) is never opened.

  The three frames are the generated ones (the reference's is its generated run with the result dropped); the
  idealisation rewrote nothing, so there is nothing to preserve.
-/
import proofs.«126416_j1855425872140_1_alg».proof.Defs
import proofs.«126416_j1855425872140_1_alg».proof.Proof.Gen.Kernel
import proofs.«126416_j1855425872140_1_alg».proof.Proof.Gen.Kernel.Skeleton
import proofs.«126416_j1855425872140_1_alg».proof.Proof.Gen.Kernel.Launch
import proofs.«126416_j1855425872140_1_alg».proof.Proof.Gen.Kernel.Points
import proofs.«126416_j1855425872140_1_alg».proof.Proof.Gen.Kernel.Frame
import proofs.«126416_j1855425872140_1_alg».proof.Proof.Gen.KernelIdeal
import proofs.«126416_j1855425872140_1_alg».proof.Proof.Gen.KernelIdeal.Skeleton
import proofs.«126416_j1855425872140_1_alg».proof.Proof.Gen.KernelIdeal.Launch
import proofs.«126416_j1855425872140_1_alg».proof.Proof.Gen.KernelIdeal.Points
import proofs.«126416_j1855425872140_1_alg».proof.Proof.Gen.KernelIdeal.Frame
import proofs.«126416_j1855425872140_1_alg».proof.Proof.Gen.ReferenceIdeal
import proofs.«126416_j1855425872140_1_alg».proof.Proof.Gen.ReferenceIdeal.Run
import proofs.«126416_j1855425872140_1_alg».proof.Proof.Gen.ReferenceIdeal.Read
import proofs.«126416_j1855425872140_1_alg».proof.Proof.Gen.Pre_finite_inputs
import proofs.«126416_j1855425872140_1_alg».proof.Proof.Heads
import proofs.«126416_j1855425872140_1_alg».proof.Proof.RefAffine
import proofs.«126416_j1855425872140_1_alg».proof.Proof.KernelRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and keeps its arguments: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the layer's map of the shared head applied to
    the arguments: the kernel by its run read through the blocks, the reference by its run read at an index. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v38_eq (F := Ideal) _ _ _).trans ?_
  rw [Cert.ReferenceIdeal.RefAffine.result_eq, Cert.ReferenceIdeal.Heads.stage_acts, Cert.ReferenceIdeal.Heads.stage_weights,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
